-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : IVec S8192x16384 32) (main_arg1 : FVec F S16384x256 .f32) : IVec S_ 1 :=
  let main_v0 : FVec F S16384x256 .f32 := Host.absf main_arg1
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  main_v3
-- ==== Kernel.lean ====
abbrev S8192x16384 : Shape := ⟨2, ![8192, 16384]⟩
abbrev S16384x256 : Shape := ⟨2, ![16384, 256]⟩
abbrev S8192x256 : Shape := ⟨2, ![8192, 256]⟩
abbrev S512x2048 : Shape := ⟨2, ![512, 2048]⟩
abbrev S2048x256 : Shape := ⟨2, ![2048, 256]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x16384, .i32⟩
  | .hbm, ⟨1, _⟩ => ⟨S16384x256, .f32⟩
  | .hbm, ⟨2, _⟩ => ⟨S8192x256, .f32⟩
  | .local _ .vmem, ⟨0, _⟩ => ⟨S512x2048, .i32⟩
  | .local _ .vmem, ⟨1, _⟩ => ⟨S512x2048, .i32⟩
  | .local _ .vmem, ⟨2, _⟩ => ⟨S2048x256, .f32⟩
  | .local _ .vmem, ⟨3, _⟩ => ⟨S2048x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S8192x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x2048_S512x2048_0_0 : ∀ a, (![0, 0] : Fin 2 → Nat) a + S512x2048.size a ≤ S512x2048.size a
  h_S512x2048 : 0 < S512x2048.numel
  natLt_1_32 : 1 < 32
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  reduces_S512x2048_S512 : S512x2048.Reduces [1] S512
  shapeCasts_S512_S512x1 : S512.ShapeCasts S512x1
  shapeCasts_S512x1_S512x1 : S512x1.ShapeCasts S512x1
  broadcasts_S512x1_S512x256 : S512x1.Broadcasts S512x256
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x16384.size a
  hwx0_0 : ∀ i : grid0.Coords, EltTy.bits .i32 = 32 ∨ (Rect.block (s := S8192x16384) S512x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .f32 = 32 ∨ (Rect.block (s := S8192x256) S512x256.size (cc0_transform_2 i) (hinb0_2 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x16384 : Shape := ⟨2, ![8192, 16384]⟩
abbrev S16384x256 : Shape := ⟨2, ![16384, 256]⟩
abbrev S_ : Shape := ⟨0, ![]⟩
abbrev S8192x256 : Shape := ⟨2, ![8192, 256]⟩
abbrev S8192 : Shape := ⟨1, ![8192]⟩
abbrev S8192x1 : Shape := ⟨2, ![8192, 1]⟩

abbrev nBuf : Space → Nat
  | .hbm => 15
  | .vmem => 0
  | .smem => 0
  | _ => 0

abbrev bufTy : (tb : Table) → Fin (tcTables nBuf tb) → BufTy
  | .hbm, ⟨0, _⟩ => ⟨S8192x16384, .i32⟩
  | .hbm, ⟨1, _⟩ => ⟨S16384x256, .f32⟩
  | .hbm, ⟨2, _⟩ => ⟨S_, .i32⟩
  | .hbm, ⟨3, _⟩ => ⟨S8192x16384, .i32⟩
  | .hbm, ⟨4, _⟩ => ⟨S8192x16384, .i1⟩
  | .hbm, ⟨5, _⟩ => ⟨S8192x16384, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x256, .f32⟩
  | .hbm, ⟨14, _⟩ => ⟨S8192x256, .f32⟩
  | _, _ => ⟨S8192x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S8192x16384 : S_.BroadcastsInDim S8192x16384 (![] : Fin 0 → Fin S8192x16384.rank)
  reducesTo_S8192x16384_S8192_d1 : S8192x16384.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  dot_S8192x16384_S16384x256_S8192x256_1_0_0_1_n_n_wf : DotDims.WF S8192x16384 S16384x256 S8192x256 [1] [0] [0] [1] [] []

variable [Facts₀]

def dot_S8192x16384_S16384x256_S8192x256_1_0_0_1_n_n : DotDims S8192x16384 S16384x256 S8192x256 where
  lhsContracting := [1]
  rhsContracting := [0]
  lhsNonContracting := [0]
  rhsNonContracting := [1]
  lhsBatch := []
  rhsBatch := []
  wf := dot_S8192x16384_S16384x256_S8192x256_1_0_0_1_n_n_wf

class Facts : Prop extends Facts₀ where

variable [Facts]
-- ==== Proof.CasePieces.lean ====
/-
  What one grid point leaves in the two accumulators and in the output block, as the body's arithmetic.

  The body keeps two [512, 256] accumulators across the eight vocabulary tiles of a row tile: the first holds the
  partial product  mask · emb,  the second the partial count of non-zero entries of each row (the same count in every
  column).  At a row tile's first vocabulary tile both are set to zero and then the tile's contribution is added; at
  every later tile the contribution is added to what the tile before left; at the last tile the output block is the
  quotient of the two accumulators (the count plus a small constant).  Each lemma below reads the stores of one of
  the three control cases back as ONE term of the body's arithmetic over the blocks the point was given.
-/
import proofs.«139883_j24008867184743_1_alg».proof.Proof.Gen.KernelIdeal.Frame
import Idealize.ShloMosaic.Lib.Pipeline.Value
import Idealize.ShloMosaic.Lib.Tactic

set_option maxRecDepth 16384

noncomputable section

namespace Cert.KernelIdeal.CasePieces

open Cert.KernelIdeal Cert.KernelIdeal.Gen Idealize.ShloMosaic Idealize.ShloMosaic.TcCoe Idealize.ShloMosaic.Tactic Idealize.SL.Sem

variable {F : FTy → Type} [FloatOps F]

/-- The offset of every access: the origin. -/
theorem hz : (![0, 0] : Fin 2 → ℕ) = fun _ => 0 := by
  funext a; fin_cases a <;> rfl

/-- First vocabulary tile: the product accumulator is the tile's product added to zero. -/
theorem first_sum (c : Dev nD) (i : grid0.Coords) (arg2 : Memref sig .tc .vmem S512x2048 .i32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : cond0_0 i) (hc1 : ¬cond0_1 i)
    (x0 : Vec F S512x2048 .i32) (x1 : Vec F S2048x256 .f32) :
    sout0_A_0 c i arg2 harg2 arg3 harg3 arg4 harg4 arg5 harg5 arg6 harg6 hc0 hc1 x0 x1 = k0_pay4 x0 x1 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S512x256) hz]
  simp only [View.readCov_unit_zero (S := S512x256) _ hz, View.readAt_eq_ld, harg2.read_unread, harg3.read_unread,
    harg5.read_unread, harg6.read_unread, View.ld_unit_zero (S := S512x2048) hz, View.ld_unit_zero (S := S2048x256) hz,
    View.ld_unit_zero (S := S512x256) hz]

/-- First vocabulary tile: the count accumulator is the tile's row counts added to zero. -/
theorem first_count (c : Dev nD) (i : grid0.Coords) (arg2 : Memref sig .tc .vmem S512x2048 .i32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : cond0_0 i) (hc1 : ¬cond0_1 i)
    (x0 : Vec F S512x2048 .i32) (x1 : Vec F S2048x256 .f32) :
    sout0_A_1 c i arg2 harg2 arg3 harg3 arg4 harg4 arg5 harg5 arg6 harg6 hc0 hc1 x0 x1 = k0_pay5 x0 (k0_pay2 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S512x256) hz]
  simp only [View.readCov_unit_zero (S := S512x256) _ hz, View.readAt_eq_ld, harg2.read_unread, harg3.read_unread,
    harg5.read_unread, harg6.read_unread, View.ld_unit_zero (S := S512x2048) hz, View.ld_unit_zero (S := S2048x256) hz,
    View.ld_unit_zero (S := S512x256) hz]

/-- A middle tile: the product accumulator is the tile's product added to what the tile before left. -/
theorem mid_sum (c : Dev nD) (i : grid0.Coords) (arg2 : Memref sig .tc .vmem S512x2048 .i32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : ¬cond0_1 i)
    (x0 : Vec F S512x2048 .i32) (x1 : Vec F S2048x256 .f32) (xs0 xs1 : Vec F S512x256 .f32) :
    sout0_B_0 c i arg2 harg2 arg3 harg3 arg4 harg4 arg5 harg5 arg6 harg6 hc0 hc1 x0 x1 xs0 xs1 = k0_pay4 x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_cons_unit_zero (S := S512x256) hz]
  simp only [View.readCov_unit_zero (S := S512x256) _ hz, View.readAt_eq_ld, harg2.read_unread, harg3.read_unread,
    harg5.read_unread, harg6.read_unread, View.ld_unit_zero (S := S512x2048) hz, View.ld_unit_zero (S := S2048x256) hz,
    View.ld_unit_zero (S := S512x256) hz]

/-- A middle tile: the count accumulator is the tile's row counts added to what the tile before left. -/
theorem mid_count (c : Dev nD) (i : grid0.Coords) (arg2 : Memref sig .tc .vmem S512x2048 .i32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : ¬cond0_1 i)
    (x0 : Vec F S512x2048 .i32) (x1 : Vec F S2048x256 .f32) (xs0 xs1 : Vec F S512x256 .f32) :
    sout0_B_1 c i arg2 harg2 arg3 harg3 arg4 harg4 arg5 harg5 arg6 harg6 hc0 hc1 x0 x1 xs0 xs1 = k0_pay5 x0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_cons_unit_zero (S := S512x256) hz]
  simp only [View.readCov_unit_zero (S := S512x256) _ hz, View.readAt_eq_ld, harg2.read_unread, harg3.read_unread,
    harg5.read_unread, harg6.read_unread, View.ld_unit_zero (S := S512x2048) hz, View.ld_unit_zero (S := S2048x256) hz,
    View.ld_unit_zero (S := S512x256) hz]

/-- Last tile: the product accumulator, as at a middle tile. -/
theorem last_sum (c : Dev nD) (i : grid0.Coords) (arg2 : Memref sig .tc .vmem S512x2048 .i32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : cond0_1 i)
    (x0 : Vec F S512x2048 .i32) (x1 : Vec F S2048x256 .f32) (xs0 xs1 : Vec F S512x256 .f32) :
    sout0_C_0 c i arg2 harg2 arg3 harg3 arg4 harg4 arg5 harg5 arg6 harg6 hc0 hc1 x0 x1 xs0 xs1 = k0_pay4 x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_cons_unit_zero (S := S512x256) hz]
  simp only [View.readCov_unit_zero (S := S512x256) _ hz, View.readAt_eq_ld, harg2.read_unread, harg3.read_unread,
    harg5.read_unread, harg6.read_unread, View.ld_unit_zero (S := S512x2048) hz, View.ld_unit_zero (S := S2048x256) hz,
    View.ld_unit_zero (S := S512x256) hz]

/-- Last tile: the count accumulator, as at a middle tile. -/
theorem last_count (c : Dev nD) (i : grid0.Coords) (arg2 : Memref sig .tc .vmem S512x2048 .i32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : cond0_1 i)
    (x0 : Vec F S512x2048 .i32) (x1 : Vec F S2048x256 .f32) (xs0 xs1 : Vec F S512x256 .f32) :
    sout0_C_1 c i arg2 harg2 arg3 harg3 arg4 harg4 arg5 harg5 arg6 harg6 hc0 hc1 x0 x1 xs0 xs1 = k0_pay5 x0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_cons_unit_zero (S := S512x256) hz]
  simp only [View.readCov_unit_zero (S := S512x256) _ hz, View.readAt_eq_ld, harg2.read_unread, harg3.read_unread,
    harg5.read_unread, harg6.read_unread, View.ld_unit_zero (S := S512x2048) hz, View.ld_unit_zero (S := S2048x256) hz,
    View.ld_unit_zero (S := S512x256) hz]

/-- Last tile: the output block is the quotient of the two accumulators as this very point leaves them. -/
theorem last_out (c : Dev nD) (i : grid0.Coords) (arg2 : Memref sig .tc .vmem S512x2048 .i32) (harg2 : arg2.IsWhole) (arg3 : Memref sig .tc .vmem S2048x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (hc0 : ¬cond0_0 i) (hc1 : cond0_1 i)
    (x0 : Vec F S512x2048 .i32) (x1 : Vec F S2048x256 .f32) (xs0 xs1 : Vec F S512x256 .f32) :
    out0_C_2 c i arg2 harg2 arg3 harg3 arg4 harg4 arg5 harg5 arg6 harg6 hc0 hc1 x0 x1 xs0 xs1 = k0_pay6 (k0_pay4 x0 x1 xs0) (k0_pay5 x0 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_cons_unit_zero (S := S512x256) hz]
  simp only [View.readCov_unit_zero (S := S512x256) _ hz, View.readAt_eq_ld, harg2.read_unread, harg3.read_unread,
    harg5.read_unread, harg6.read_unread, View.ld_unit_zero (S := S512x2048) hz, View.ld_unit_zero (S := S2048x256) hz,
    View.ld_unit_zero (S := S512x256) hz]

end Cert.KernelIdeal.CasePieces

end
-- ==== Proof.MeanSpec.lean ====
/-
  The function both programs compute: the mean embedding of a multi-hot row.

  For an integer array x of shape [8192, 16384] and a table emb of shape [16384, 256], let ind(w) be 1 when the word w
  is non-zero and 0 when it is zero.  Row r of the result is

      ( ∑ₖ ind(x[r, k]) · emb[k, e] ) / ( ( ∑ₖ ind(x[r, k]) ) + ε ),        e < 256,

  the sum of the table's rows at the non-zero positions of x's row r, divided by the number of those positions plus a
  small constant ε (the binary32 number nearest 10⁻⁶, the same word in both programs, so never evaluated).  All
  arithmetic is on extended reals, exactly.
-/
import Idealize.ShloMosaic.Lib.ValueIdx
import Idealize.ShloMosaic.PureOps.Ideal.Laws

noncomputable section

open scoped BigOperators

namespace MaskedMean

open Idealize.ShloMosaic Idealize.ShloMosaic.ValueIdx

/-- 1 at a non-zero word, 0 at the zero word. -/
def ind (w : BitVec 32) : EReal := (((IntOp.cmpi .ne w 0#32).toNat : ℝ) : EReal)

/-- The small constant added to the count. -/
def eps : EReal := Ideal.ofBits .f32 0x358637BD#32

/-- A one-bit word widened with zeros to 32 bits and read as a signed integer is the bit read as a natural:
    the kernel's route from the comparison to a float (widen, convert signed) and the reference's (convert the
    bit unsigned) give the same number. -/
theorem widen_signed_eq_unsigned (b : BitVec 1) : (((b.setWidth 32).toInt : ℝ) : EReal) = ((b.toNat : ℝ) : EReal) := by
  have h : ∀ b : BitVec 1, (b.setWidth 32).toInt = (b.toNat : ℤ) := by decide
  rw [h b]; norm_cast

/-- The mean embedding, entry by entry. -/
def mean (x : (⟨2, ![8192, 16384]⟩ : Shape).Idx → BitVec 32) (emb : (⟨2, ![16384, 256]⟩ : Shape).Idx → EReal) :
    (⟨2, ![8192, 256]⟩ : Shape).Idx → EReal := fun i =>
  Ideal.div (∑ k : Fin 16384, ind (x (ix2 (i 0) k)) * emb (ix2 k (i 1))) ((∑ k : Fin 16384, ind (x (ix2 (i 0) k))) + eps)

end MaskedMean

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.LibRowSum.lean ====
/-
  A sum along the rows of a two-dimensional array, read at a row.

  Reducing an [m, n] array over its second axis leaves an [m] array; at row p the kernel's vector reduction from
  the zero accumulator is the plain sum of the row's n entries.  Stated for any extents.
-/
import Idealize.ShloMosaic.Lib.ValueIdx
import Idealize.ShloMosaic.PureOps.Ideal.Laws

noncomputable section

open scoped BigOperators

namespace RowSum

open Idealize.ShloMosaic Idealize.ShloMosaic.ValueIdx

variable {m n : Nat}

/-- The reduced index p with column k put back is (p, k). -/
theorem lift_ix2 (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The kernel's sum over the second axis from the zero word, at row p: the sum of the row. -/
theorem multiReduction_apply {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) := by
  refine (Ideal.multiReduction_add_single src acc h hφ hacc (ix1 p)).trans ?_
  exact Finset.sum_congr rfl fun k _ => congrArg src (lift_ix2 h p k)

end RowSum

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.TileArith.lean ====
/-
  The body's arithmetic on one tile, entry by entry, on extended reals.

  With x0 the [512, 2048] integer block and e0 the [2048, 256] table block of a grid point:
    * the mask entry (p, j) is the indicator of x0[p, j] ≠ 0 (a comparison, widened and converted; the rounding to
      bfloat16 and back is the identity on extended reals);
    * the product accumulator gains  ∑ⱼ ind(x0[p, j]) · e0[j, q]  at (p, q) — a matrix product into a zero accumulator;
    * the count accumulator gains  ∑ⱼ ind(x0[p, j])  at (p, q), whatever q — a row sum kept as a column and broadcast;
    * the output block is the quotient  sum / (count + ε).
-/
import proofs.«139883_j24008867184743_1_alg».proof.Proof.Gen.KernelIdeal.Skeleton
import proofs.«139883_j24008867184743_1_alg».proof.Proof.MeanSpec
import proofs.«139883_j24008867184743_1_alg».proof.Proof.LibPlainDot
import proofs.«139883_j24008867184743_1_alg».proof.Proof.LibRowSum
import proofs.«139883_j24008867184743_1_alg».proof.Proof.LibKeepdims
import Idealize.ShloMosaic.Lib.Pipeline.Value

noncomputable section

open scoped BigOperators

namespace Cert.KernelIdeal.TileArith

open Cert.KernelIdeal Cert.KernelIdeal.Gen Idealize.ShloMosaic Idealize.ShloMosaic.ValueIdx MaskedMean

/-- The tile's contribution to the product accumulator. -/
def prodTile (x0 : Vec Ideal S512x2048 .i32) (e0 : Vec Ideal S2048x256 .f32) : S512x256.Idx → EReal := fun i =>
  ∑ j : Fin 2048, ind (x0 (ix2 (i 0) j)) * e0 (ix2 j (i 1))

/-- The tile's contribution to the count accumulator. -/
def countTile (x0 : Vec Ideal S512x2048 .i32) : S512x256.Idx → EReal := fun i =>
  ∑ j : Fin 2048, ind (x0 (ix2 (i 0) j))

/-- The zero the product accumulator is reset to. -/
theorem zero_sum (i : S512x256.Idx) : k0_pay1 (F := Ideal) i = 0 := by
  unfold k0_pay1
  simp only [shapeCast_self]
  show Ideal.ofBits .f32 0x00000000#32 = 0
  exact Ideal.ofBits_zero_f32

/-- The zero the count accumulator is reset to. -/
theorem zero_count (i : S512x256.Idx) : k0_pay2 (F := Ideal) i = 0 := by
  unfold k0_pay2
  simp only [shapeCast_self]
  show Ideal.ofBits .f32 0x00000000#32 = 0
  exact Ideal.ofBits_zero_f32

/-- The mask, entry by entry. -/
theorem mask_apply (x0 : Vec Ideal S512x2048 .i32) (i : S512x2048.Idx) :
    k0_pay3 (F := Ideal) x0 i = ind (x0 i) := by
  unfold k0_pay3
  show (((((IntOp.cmpi .ne (x0 i) 0#32).setWidth 32).toInt : ℝ)) : EReal) = _
  exact widen_signed_eq_unsigned _

/-- The dimension numbers of the body's matrix product are the plain ones. -/
theorem plain : PlainDot.IsPlain dot_S512x2048_S2048x256_S512x256_1_0_0_1_n_n := ⟨rfl, rfl, rfl, rfl, rfl, rfl⟩

/-- The product accumulator after the tile: what it held plus the tile's product. -/
theorem sum_apply (x0 : Vec Ideal S512x2048 .i32) (e0 : Vec Ideal S2048x256 .f32) (acc : Vec Ideal S512x256 .f32)
    (p : Fin 512) (q : Fin 256) :
    k0_pay4 (F := Ideal) x0 e0 acc (ix2 p q) = acc (ix2 p q) + prodTile x0 e0 (ix2 p q) := by
  unfold k0_pay4
  simp only [shapeCast_self]
  show acc (ix2 p q) + matmul dot_S512x2048_S2048x256_S512x256_1_0_0_1_n_n none
      (truncf .bf16 (k0_pay3 (F := Ideal) x0) bitsLt_bf16_f32) (truncf .bf16 e0 bitsLt_bf16_f32)
      (constant S512x256 .f32 0x00000000#32) (ix2 p q) = _
  rw [PlainDot.matmul_zero_apply plain]
  refine congrArg (acc (ix2 p q) + ·) (Finset.sum_congr rfl fun j _ => ?_)
  show k0_pay3 (F := Ideal) x0 (ix2 p j) * e0 (ix2 j q) = _
  rw [mask_apply]

/-- The count accumulator after the tile: what it held plus the number of non-zero entries of the tile's row. -/
theorem count_apply (x0 : Vec Ideal S512x2048 .i32) (acc : Vec Ideal S512x256 .f32) (p : Fin 512) (q : Fin 256) :
    k0_pay5 (F := Ideal) x0 acc (ix2 p q) = acc (ix2 p q) + countTile x0 (ix2 p q) := by
  unfold k0_pay5
  simp only [shapeCast_self]
  show acc (ix2 p q) + broadcastTo S512x256 (shapeCast S512x1
      (multiReduction (F := Ideal) .add [1] S512 (k0_pay3 (F := Ideal) x0) 0x00000000#32 reduces_S512x2048_S512 (.inl rfl) rfl)
      shapeCasts_S512_S512x1) broadcasts_S512x1_S512x256 (ix2 p q) = _
  rw [KeepdimsLayout.broadcastTo_a1_ab_apply, KeepdimsLayout.shapeCast_a_a1_apply]
  refine congrArg (acc (ix2 p q) + ·) ?_
  refine (RowSum.multiReduction_apply (k0_pay3 (F := Ideal) x0) 0x00000000#32 reduces_S512x2048_S512 (.inl rfl) rfl p).trans ?_
  exact Finset.sum_congr rfl fun j _ => mask_apply x0 (ix2 p j)

/-- The output block: the quotient of the accumulators, ε added to the count. -/
theorem out_apply (s cnt : Vec Ideal S512x256 .f32) (i : S512x256.Idx) :
    k0_pay6 (F := Ideal) s cnt i = Ideal.div (s i) (cnt i + eps) := rfl

end Cert.KernelIdeal.TileArith

end
-- ==== Proof.TileBlocks.lean ====
/-
  Where a grid point's blocks lie in the arrays.

  The grid has 16 row tiles and 8 vocabulary tiles; point t is row tile t / 8 and vocabulary tile t % 8.  Its block of
  x is rows 512·(t/8) … + 511 and columns 2048·(t%8) … + 2047; its block of the table is rows 2048·(t%8) … + 2047 and
  all 256 columns; its output block is rows 512·(t/8) … + 511 and all 256 columns.
-/
import proofs.«139883_j24008867184743_1_alg».proof.Proof.Gen.KernelIdeal.Frame
import Idealize.ShloMosaic.Lib.Pipeline.Value
import Idealize.ShloMosaic.Lib.ValueIdx

noncomputable section

namespace Cert.KernelIdeal.TileBlocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The two argument arrays and a point's two input blocks, at their literal shapes. -/
abbrev xarr (c : Dev nD) : Vec Ideal S8192x16384 .i32 := V m c main_arg0
abbrev earr (c : Dev nD) : Vec Ideal S16384x256 .f32 := V m c main_arg1
abbrev xblk (c : Dev nD) (t : Fin cfg0.N) : Vec Ideal S512x2048 .i32 := iblk m c 0 t
abbrev eblk (c : Dev nD) (t : Fin cfg0.N) : Vec Ideal S2048x256 .f32 := iblk m c 1 t

theorem xarr_eq (c : Dev nD) : xarr m c = m ((c : Thread nD τ).loc main_arg0) := rfl
theorem earr_eq (c : Dev nD) : earr m c = m ((c : Thread nD τ).loc main_arg1) := rfl

/-- The windows' block indices at point t, decided over the 128 points. -/
theorem idx_facts : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Entry (p, j) of the block of x at the point of row tile a and vocabulary tile b. -/
theorem xblk_apply (c : Dev nD) (t : Fin cfg0.N) (p : Fin 512) (j : Fin 2048) (a b : ℕ) (ha : t.val / 8 = a) (hb : t.val % 8 = b)
    (h0 : 512 * a + p.val < 8192) (h1 : 2048 * b + j.val < 16384) :
    xblk m c t (ix2 p j) = xarr m c (ix2 ⟨512 * a + p.val, h0⟩ ⟨2048 * b + j.val, h1⟩) := by
  show V m c main_arg0 (((cfg0.win 0).blk t).view.emb (ix2 p j)) = V m c main_arg0 _
  refine congrArg _ (funext fun d => Fin.ext ?_)
  obtain ⟨e0, e1, -⟩ := idx_facts t
  match d with
  | ⟨0, _⟩ => show win0_0.index t (0 : Fin 2) * 512 + 1 * p.val = 512 * a + p.val; omega
  | ⟨1, _⟩ => show win0_0.index t (1 : Fin 2) * 2048 + 1 * j.val = 2048 * b + j.val; omega

/-- Entry (j, q) of the block of the table at a point of vocabulary tile b. -/
theorem eblk_apply (c : Dev nD) (t : Fin cfg0.N) (j : Fin 2048) (q : Fin 256) (b : ℕ) (hb : t.val % 8 = b)
    (h1 : 2048 * b + j.val < 16384) :
    eblk m c t (ix2 j q) = earr m c (ix2 ⟨2048 * b + j.val, h1⟩ q) := by
  show V m c main_arg1 (((cfg0.win 1).blk t).view.emb (ix2 j q)) = V m c main_arg1 _
  refine congrArg _ (funext fun d => Fin.ext ?_)
  obtain ⟨-, -, e2, e3, -⟩ := idx_facts t
  match d with
  | ⟨0, _⟩ => show win0_1.index t (0 : Fin 2) * 2048 + 1 * j.val = 2048 * b + j.val; omega
  | ⟨1, _⟩ => show win0_1.index t (1 : Fin 2) * 256 + 1 * q.val = q.val; omega

/-- Where entry (p, q) of the point's output block lies in the result array. -/
theorem out_emb (t : Fin cfg0.N) (p : Fin 512) (q : Fin 256) (h0 : 512 * (t.val / 8) + p.val < 8192) :
    ((cfg0.win 2).blk t).view.emb (ix2 p q) = (ix2 ⟨512 * (t.val / 8) + p.val, h0⟩ q : S8192x256.Idx) := by
  refine funext fun a => Fin.ext ?_
  obtain ⟨-, -, -, -, e4, e5⟩ := idx_facts t
  match a with
  | ⟨0, _⟩ => show win0_2.index t (0 : Fin 2) * 512 + 1 * p.val = 512 * (t.val / 8) + p.val; omega
  | ⟨1, _⟩ => show win0_2.index t (1 : Fin 2) * 256 + 1 * q.val = q.val; omega

end Cert.KernelIdeal.TileBlocks

end
-- ==== Proof.BlockSum.lean ====
/-
  A long sum cut into consecutive blocks.

  A sum over the K = n * B positions 0, 1, …, K - 1 may be taken block by block: block s holds the n positions
  n*s, n*s + 1, …, n*s + n - 1, and the B block sums add up to the whole.  This is associativity and commutativity of
  addition only, so it holds in any commutative monoid — in particular for extended reals, infinite terms included.
-/
import Mathlib.Algebra.BigOperators.Fin
import Mathlib.Algebra.BigOperators.Group.Finset.Basic

open scoped BigOperators

namespace BlockSum

variable {β : Type*} [AddCommMonoid β]

/-- Over the naturals: the first n*B terms, grouped into B runs of n. -/
theorem range_mul (n : ℕ) (g : ℕ → β) :
    ∀ B : ℕ, ∑ k ∈ Finset.range (n * B), g k = ∑ s ∈ Finset.range B, ∑ j ∈ Finset.range n, g (n * s + j)
  | 0 => by simp
  | B + 1 => by
    rw [Nat.mul_succ, Finset.sum_range_add, range_mul n g B, Finset.sum_range_succ]

/-- The same for a family indexed by the K positions themselves: block s sums the terms at positions n*s + j,
    j < n (a position outside the range, which no block of the B reaches, counts as nothing). -/
theorem fin_blocks {K : ℕ} (n B : ℕ) (hK : K = n * B) (f : Fin K → β) :
    ∑ s ∈ Finset.range B, ∑ j : Fin n, (if h : n * s + j.val < K then f ⟨n * s + j.val, h⟩ else 0) = ∑ k : Fin K, f k := by
  subst hK
  rw [Finset.sum_fin_eq_sum_range, range_mul n _ B]
  refine Finset.sum_congr rfl fun s _ => ?_
  exact Fin.sum_univ_eq_sum_range (fun j => if h : n * s + j < n * B then f ⟨n * s + j, h⟩ else 0) n

end BlockSum
-- ==== Proof.Accumulators.lean ====
/-
  The two accumulators after any grid point, and the output block at a row tile's last point.

  Within a row tile the eight vocabulary tiles are visited in order.  At the first one each accumulator is set to
  zero plus the tile's contribution; at each later one the tile's contribution is added to what the tile before left.
  So after vocabulary tile k of row tile a, the product accumulator holds  0 + ∑_{s ≤ k} (product of tile s)  and the
  count accumulator  0 + ∑_{s ≤ k} (row counts of tile s).  At the last tile, k = 7, the eight blocks of 2048
  positions make up all 16384 positions of the row, and the output block, the quotient of the two accumulators with ε
  added to the count, is the mean embedding of the rows of that row tile.
-/
import proofs.«139883_j24008867184743_1_alg».proof.Proof.Gen.KernelIdeal.Value
import proofs.«139883_j24008867184743_1_alg».proof.Proof.CasePieces
import proofs.«139883_j24008867184743_1_alg».proof.Proof.TileArith
import proofs.«139883_j24008867184743_1_alg».proof.Proof.TileBlocks
import proofs.«139883_j24008867184743_1_alg».proof.Proof.BlockSum

noncomputable section

open scoped BigOperators

namespace Cert.KernelIdeal.Accum

open Cert.KernelIdeal Cert.KernelIdeal.Gen Cert.KernelIdeal.Value Cert.KernelIdeal.TileArith Cert.KernelIdeal.TileBlocks
open Idealize.ShloMosaic Idealize.ShloMosaic.TcCoe Idealize.ShloMosaic.ValueIdx Idealize.SL.Sem MaskedMean

variable (m : (ℓ : Loc nD τ sig) → Buf (Elt Ideal) ℓ)

/-- What point n adds to the product accumulator (nothing past the grid, where no point is). -/
def addSum (c : Dev nD) (n : ℕ) : S512x256.Idx → EReal := fun i =>
  if h : n < cfg0.N then prodTile (xblk m c ⟨n, h⟩) (eblk m c ⟨n, h⟩) i else 0

/-- What point n adds to the count accumulator. -/
def addCount (c : Dev nD) (n : ℕ) : S512x256.Idx → EReal := fun i =>
  if h : n < cfg0.N then countTile (xblk m c ⟨n, h⟩) i else 0

/-! ## One point's step, by the body's arithmetic -/

/-- At a row tile's first point the product accumulator is reset: zero, then the tile's product. -/
theorem sum_reset (c : Dev nD) (n : ℕ) (hb : n < cfg0.N) (acc : Vec Ideal S512x256 .f32) (h0 : n % 8 = 0) :
    scAt0_0 m c n hb acc = k0_pay4 (xblk m c ⟨n, hb⟩) (eblk m c ⟨n, hb⟩) (k0_pay1 (F := Ideal)) := by
  unfold scAt0_0
  rw [dif_pos h0, dif_neg (by omega)]
  exact CasePieces.first_sum c _ _ _ _ _ _ _ _ _ _ _ _ _ (iblk m c 0 ⟨n, hb⟩) (iblk m c 1 ⟨n, hb⟩)

/-- At any other point the tile's product is added to what the point before left. -/
theorem sum_step (c : Dev nD) (n : ℕ) (hb : n < cfg0.N) (acc : Vec Ideal S512x256 .f32) (h0 : ¬n % 8 = 0) :
    scAt0_0 m c n hb acc = k0_pay4 (xblk m c ⟨n, hb⟩) (eblk m c ⟨n, hb⟩) acc := by
  unfold scAt0_0
  rw [dif_neg h0]
  by_cases h1 : n % 8 = 7
  · rw [dif_pos h1]
    exact CasePieces.last_sum c _ _ _ _ _ _ _ _ _ _ _ _ _ (iblk m c 0 ⟨n, hb⟩) (iblk m c 1 ⟨n, hb⟩) acc _
  · rw [dif_neg h1]
    exact CasePieces.mid_sum c _ _ _ _ _ _ _ _ _ _ _ _ _ (iblk m c 0 ⟨n, hb⟩) (iblk m c 1 ⟨n, hb⟩) acc _

/-- The count accumulator, at a row tile's first point: zero, then the tile's row counts. -/
theorem count_reset (c : Dev nD) (n : ℕ) (hb : n < cfg0.N) (acc : Vec Ideal S512x256 .f32) (h0 : n % 8 = 0) :
    scAt0_1 m c n hb acc = k0_pay5 (xblk m c ⟨n, hb⟩) (k0_pay2 (F := Ideal)) := by
  unfold scAt0_1
  rw [dif_pos h0, dif_neg (by omega)]
  exact CasePieces.first_count c _ _ _ _ _ _ _ _ _ _ _ _ _ (iblk m c 0 ⟨n, hb⟩) (iblk m c 1 ⟨n, hb⟩)

/-- The count accumulator at any other point: the tile's row counts added to what the point before left. -/
theorem count_step (c : Dev nD) (n : ℕ) (hb : n < cfg0.N) (acc : Vec Ideal S512x256 .f32) (h0 : ¬n % 8 = 0) :
    scAt0_1 m c n hb acc = k0_pay5 (xblk m c ⟨n, hb⟩) acc := by
  unfold scAt0_1
  rw [dif_neg h0]
  by_cases h1 : n % 8 = 7
  · rw [dif_pos h1]
    exact CasePieces.last_count c _ _ _ _ _ _ _ _ _ _ _ _ _ (iblk m c 0 ⟨n, hb⟩) (iblk m c 1 ⟨n, hb⟩) _ acc
  · rw [dif_neg h1]
    exact CasePieces.mid_count c _ _ _ _ _ _ _ _ _ _ _ _ _ (iblk m c 0 ⟨n, hb⟩) (iblk m c 1 ⟨n, hb⟩) _ acc

/-! ## The accumulators after a point, as sums over the row tile's points so far -/

/-- The product accumulator after point t. -/
theorem sum_after (c : Dev nD) (t : Fin cfg0.N) (i : S512x256.Idx) :
    (outsAt0 m c t.val t.isLt).2.1 i = 0 + ∑ s ∈ Finset.range (t.val % 8 + 1), addSum m c (8 * (t.val / 8) + s) i := by
  rw [soutsAt0_0_eq m c t]
  refine Pipeline.accAt_add_apply _ _ (fun _ => (0 : EReal)) (addSum m c) (8 * (t.val / 8)) 7 ?_ ?_ (t.val % 8) (by omega) _ i
  · intro h i
    show scAt0_0 m c _ h _ i = 0 + addSum m c _ i
    obtain ⟨p, q, rfl⟩ : ∃ (p : Fin 512) (q : Fin 256), i = ix2 p q := ⟨i 0, i 1, eq_ix2 i⟩
    rw [sum_reset m c _ h _ (by omega), TileArith.sum_apply, zero_sum]
    unfold addSum; rw [dif_pos h]
  · intro n h acc i hlo hhi
    show scAt0_0 m c n h acc i = acc i + addSum m c n i
    obtain ⟨p, q, rfl⟩ : ∃ (p : Fin 512) (q : Fin 256), i = ix2 p q := ⟨i 0, i 1, eq_ix2 i⟩
    rw [sum_step m c n h acc (by omega), TileArith.sum_apply]
    unfold addSum; rw [dif_pos h]

/-- The count accumulator after point t. -/
theorem count_after (c : Dev nD) (t : Fin cfg0.N) (i : S512x256.Idx) :
    (outsAt0 m c t.val t.isLt).2.2 i = 0 + ∑ s ∈ Finset.range (t.val % 8 + 1), addCount m c (8 * (t.val / 8) + s) i := by
  rw [soutsAt0_1_eq m c t]
  refine Pipeline.accAt_add_apply _ _ (fun _ => (0 : EReal)) (addCount m c) (8 * (t.val / 8)) 7 ?_ ?_ (t.val % 8) (by omega) _ i
  · intro h i
    show scAt0_1 m c _ h _ i = 0 + addCount m c _ i
    obtain ⟨p, q, rfl⟩ : ∃ (p : Fin 512) (q : Fin 256), i = ix2 p q := ⟨i 0, i 1, eq_ix2 i⟩
    rw [count_reset m c _ h _ (by omega), TileArith.count_apply, zero_count]
    unfold addCount; rw [dif_pos h]
  · intro n h acc i hlo hhi
    show scAt0_1 m c n h acc i = acc i + addCount m c n i
    obtain ⟨p, q, rfl⟩ : ∃ (p : Fin 512) (q : Fin 256), i = ix2 p q := ⟨i 0, i 1, eq_ix2 i⟩
    rw [count_step m c n h acc (by omega), TileArith.count_apply]
    unfold addCount; rw [dif_pos h]

end Cert.KernelIdeal.Accum

end
-- ==== Proof.KernelMean.lean ====
/-
  The kernel's result array is the mean embedding.

  The output block of row tile a is written back once, at the tile's last point 8a + 7.  There the two accumulators
  hold the sums over all eight vocabulary tiles; the eight blocks of 2048 positions are the 16384 positions of a row,
  so the block written is rows 512a … 512a + 511 of the mean embedding.  The sixteen blocks tile the [8192, 256]
  result, so after the run the whole array is the mean embedding of the two arguments.
-/
import proofs.«139883_j24008867184743_1_alg».proof.Proof.Accumulators

noncomputable section

open scoped BigOperators

namespace Cert.KernelIdeal.KMean

open Cert.KernelIdeal Cert.KernelIdeal.Gen Cert.KernelIdeal.Value Cert.KernelIdeal.TileArith Cert.KernelIdeal.TileBlocks
open Cert.KernelIdeal.Accum
open Idealize.ShloMosaic Idealize.ShloMosaic.TcCoe Idealize.ShloMosaic.ValueIdx Idealize.SL.Sem MaskedMean
open Idealize.ShloMosaic.Pipeline (Dat)

variable (m : (ℓ : Loc nD τ sig) → Buf (Elt Ideal) ℓ) (ρ : Dev nD → PrngReg)

/-- At a row tile's last point the output block is the quotient of the two accumulators as that point leaves them. -/
theorem out_last (c : Dev nD) (t : Fin cfg0.N) (h7 : t.val % 8 = 7) :
    (outsAt0 m c t.val t.isLt).1
      = k0_pay6 (F := Ideal) (outsAt0 m c t.val t.isLt).2.1 (outsAt0 m c t.val t.isLt).2.2 := by
  rw [outsAt0_C m c t (by omega) h7]
  dsimp only
  rw [CasePieces.last_out, CasePieces.last_sum, CasePieces.last_count]

/-- The eight tiles' products at (p, q) make up the whole row's product sum. -/
theorem sum_row (c : Dev nD) (a : ℕ) (ha : a < 16) (p : Fin 512) (q : Fin 256) (h0 : 512 * a + p.val < 8192) :
    ∑ s ∈ Finset.range 8, addSum m c (8 * a + s) (ix2 p q)
      = ∑ k : Fin 16384, ind (xarr m c (ix2 ⟨512 * a + p.val, h0⟩ k)) * earr m c (ix2 k q) := by
  rw [← BlockSum.fin_blocks 2048 8 rfl (fun k : Fin 16384 => ind (xarr m c (ix2 ⟨512 * a + p.val, h0⟩ k)) * earr m c (ix2 k q))]
  refine Finset.sum_congr rfl fun s hs => ?_
  have hs8 : s < 8 := Finset.mem_range.mp hs
  have hN : cfg0.N = 128 := N_0
  have hn : 8 * a + s < cfg0.N := by omega
  unfold addSum; rw [dif_pos hn]
  unfold prodTile
  refine Finset.sum_congr rfl fun j _ => ?_
  have hj := j.isLt
  rw [dif_pos (by omega)]
  show ind (xblk m c ⟨8 * a + s, hn⟩ (ix2 p j)) * eblk m c ⟨8 * a + s, hn⟩ (ix2 j q) = _
  rw [xblk_apply m c ⟨8 * a + s, hn⟩ p j a s (by show (8 * a + s) / 8 = a; omega) (by show (8 * a + s) % 8 = s; omega) h0 (by omega),
    eblk_apply m c ⟨8 * a + s, hn⟩ j q s (by show (8 * a + s) % 8 = s; omega) (by omega)]

/-- The eight tiles' row counts make up the whole row's count. -/
theorem count_row (c : Dev nD) (a : ℕ) (ha : a < 16) (p : Fin 512) (q : Fin 256) (h0 : 512 * a + p.val < 8192) :
    ∑ s ∈ Finset.range 8, addCount m c (8 * a + s) (ix2 p q)
      = ∑ k : Fin 16384, ind (xarr m c (ix2 ⟨512 * a + p.val, h0⟩ k)) := by
  rw [← BlockSum.fin_blocks 2048 8 rfl (fun k : Fin 16384 => ind (xarr m c (ix2 ⟨512 * a + p.val, h0⟩ k)))]
  refine Finset.sum_congr rfl fun s hs => ?_
  have hs8 : s < 8 := Finset.mem_range.mp hs
  have hN : cfg0.N = 128 := N_0
  have hn : 8 * a + s < cfg0.N := by omega
  unfold addCount; rw [dif_pos hn]
  unfold countTile
  refine Finset.sum_congr rfl fun j _ => ?_
  have hj := j.isLt
  rw [dif_pos (by omega)]
  show ind (xblk m c ⟨8 * a + s, hn⟩ (ix2 p j)) = _
  rw [xblk_apply m c ⟨8 * a + s, hn⟩ p j a s (by show (8 * a + s) / 8 = a; omega) (by show (8 * a + s) % 8 = s; omega) h0 (by omega)]

/-- Entry (p, q) of the block written back at a row tile's last point is the mean embedding at row 512·(t/8) + p. -/
theorem out_at (c : Dev nD) (t : Fin cfg0.N) (h7 : t.val % 8 = 7) (p : Fin 512) (q : Fin 256)
    (h0 : 512 * (t.val / 8) + p.val < 8192) :
    (outsAt0 m c t.val t.isLt).1 (ix2 p q) = mean (xarr m c) (earr m c) (ix2 ⟨512 * (t.val / 8) + p.val, h0⟩ q) := by
  have hN : cfg0.N = 128 := N_0
  have ht := t.isLt
  rw [out_last m c t h7, out_apply, sum_after, count_after, h7, zero_add, zero_add,
    sum_row m c (t.val / 8) (by omega) p q h0, count_row m c (t.val / 8) (by omega) p q h0]
  rfl

/-- Reading an array through a point's output block at (p, q) reads the array where the block puts (p, q). -/
theorem read_out (G : S8192x256.Idx → EReal) (t : Fin cfg0.N) (p : Fin 512) (q : Fin 256) :
    ((cfg0.win 2).blk t).view.read (Elt Ideal) G (ix2 p q) = G (((cfg0.win 2).blk t).view.emb (ix2 p q)) := rfl

/-- What a writing point writes back is its block of the mean embedding. -/
theorem flushed_eq (c : Dev nD) (t : Fin cfg0.N) (hf : (cfg0.win 2).flush t = true) :
    (dats m 0 c).flushed 2 t = ((cfg0.win 2).blk t).view.read (Elt Ideal) (mean (xarr m c) (earr m c)) := by
  have h7 : t.val % 8 = 7 := (flush0_2 t).mp hf
  have hN : cfg0.N = 128 := N_0
  have ht := t.isLt
  rw [flushed2]
  refine funext fun (j : S512x256.Idx) => ?_
  obtain ⟨p, q, rfl⟩ : ∃ (p : Fin 512) (q : Fin 256), j = ix2 p q := ⟨j 0, j 1, eq_ix2 j⟩
  have hp := p.isLt
  refine Eq.trans ?_ (read_out (mean (xarr m c) (earr m c)) t p q).symm
  have hx : (cfg0.win 2).xinj (grid0.coords t) (ix2 p q) = (ix2 p q : S512x256.Idx) :=
    funext fun a => Fin.ext (by match a with | ⟨0, _⟩ => rfl | ⟨1, _⟩ => rfl)
  refine (congrArg (outsAt0 m c t.val t.isLt).1 hx).trans ?_
  refine (out_at m c t h7 p q (by omega)).trans ?_
  exact congrArg (mean (xarr m c) (earr m c)) (out_emb t p q (by omega)).symm

/-- An index of the result lies in a point's output block iff each coordinate lies in the block's range. -/
theorem mem_blk (t : Fin cfg0.N) (i : S8192x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v0).slice (win0_2.rect t)).set ↔ _
  rw [View.set_slice_whole, Rect.mem_set_unit]
  exact Iff.rfl

/-- Every index of the result is in the block written at the last point of its row tile. -/
theorem cover (i : S8192x256.Idx) : ∃ t : Fin cfg0.N, (cfg0.win 2).flush t = true ∧ i ∈ ((cfg0.win 2).blk t).view.set := by
  have hN : cfg0.N = 128 := N_0
  have hi0 : (i 0).val < 8192 := (i 0).isLt
  have hi1 : (i 1).val < 256 := (i 1).isLt
  refine ⟨⟨8 * ((i 0).val / 512) + 7, by omega⟩, (flush0_2 _).mpr (by show (8 * ((i 0).val / 512) + 7) % 8 = 7; omega), ?_⟩
  rw [mem_blk]
  obtain ⟨-, -, -, -, e4, e5⟩ := idx_facts (⟨8 * ((i 0).val / 512) + 7, by omega⟩ : Fin cfg0.N)
  have e4' : win0_2.index (⟨8 * ((i 0).val / 512) + 7, by omega⟩ : Fin cfg0.N) (0 : Fin 2) = (i 0).val / 512 := by
    rw [e4]; show (8 * ((i 0).val / 512) + 7) / 8 = _; omega
  intro a
  match a with
  | ⟨0, _⟩ =>
    show win0_2.index _ (0 : Fin 2) * 512 ≤ (i 0).val ∧ (i 0).val < win0_2.index _ (0 : Fin 2) * 512 + 512
    rw [e4']; omega
  | ⟨1, _⟩ =>
    show win0_2.index _ (1 : Fin 2) * 256 ≤ (i 1).val ∧ (i 1).val < win0_2.index _ (1 : Fin 2) * 256 + 256
    rw [e5]; omega

/-- After the run the result array is the mean embedding of the argument arrays. -/
theorem final (c : Dev nD) : (dats m 0 c).arrAt 2 cfg0.N = mean (xarr m c) (earr m c) :=
  (dats m 0 c).arrAt_eq_of_cover 2 (mean (xarr m c) (earr m c)) (flushed_eq m c) cover

/-- The kernel's run: it terminates with the result at the mean embedding and the arguments unchanged. -/
theorem run : θ_run defs (onTc (τ := τ) (main (F := Ideal))) ⟨m, fun _ => 0, ρ⟩ fun r => ∀ c : Dev nD,
      r.2.mem ((c : Thread nD τ).loc main_v0)
        = mean (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KMean

end
-- ==== Proof.RefIsMean.lean ====
/-
  The reference computes the mean embedding.

  The host program compares x with zero, converts the truth values to floats, multiplies that mask into the table
  (a sum over the 16384 vocabulary positions), sums the mask along each row starting from zero, adds ε, and divides.
  Read one operation at a time at a result entry (r, e), this is the quotient of the two sums of the specification.
-/
import proofs.«139883_j24008867184743_1_alg».proof.Proof.Gen.ReferenceIdeal.Read
import proofs.«139883_j24008867184743_1_alg».proof.Proof.MeanSpec

noncomputable section

open scoped BigOperators

namespace Cert.ReferenceIdeal.RefMean

open Cert.ReferenceIdeal Cert.ReferenceIdeal.Gen Cert.ReferenceIdeal.Read Idealize.ShloMosaic Idealize.ShloMosaic.ValueIdx

/-- The mask entry the reference computes is the indicator of a non-zero word. -/
theorem mask_apply (x0 : (⟨S8192x16384, .i32⟩ : BufTy).Contents (Elt Ideal)) (i : S8192x16384.Idx) :
    val_main_v2 (F := Ideal) x0 i = MaskedMean.ind (x0 i) := by
  rw [val_main_v2_apply, val_main_v1_apply, val_main_v0_apply, val_main_c_apply]
  rfl

/-- The left operand of the product at (r, e) and position k is read at (r, k). -/
theorem lidx_eq (i : S8192x256.Idx) (k : Fin 16384) : lidx_main_v3 i k = ix2 (i 0) k :=
  funext fun a => Fin.ext (by match a with | ⟨0, _⟩ => rfl | ⟨1, _⟩ => rfl)

/-- The right operand is read at (k, e). -/
theorem ridx_eq (i : S8192x256.Idx) (k : Fin 16384) : ridx_main_v3 i k = ix2 k (i 1) :=
  funext fun a => Fin.ext (by match a with | ⟨0, _⟩ => rfl | ⟨1, _⟩ => rfl)

/-- The row count broadcast to (r, e) sums row r of the mask. -/
theorem cidx_eq (i : S8192x256.Idx) (k : Fin 16384) : idx_main_v4 (idx_main_v5 (idx_main_v8 i)) k = ix2 (i 0) k :=
  funext fun a => Fin.ext (by match a with | ⟨0, _⟩ => rfl | ⟨1, _⟩ => rfl)

/-- The reference's result is the mean embedding. -/
theorem result_eq (x0 : (⟨S8192x16384, .i32⟩ : BufTy).Contents (Elt Ideal)) (x1 : (⟨S16384x256, .f32⟩ : BufTy).Contents (Elt Ideal)) :
    val_main_v9 (F := Ideal) x0 x1 = MaskedMean.mean x0 x1 := by
  funext i
  rw [val_main_v9_apply, val_main_v3_apply, val_main_v8_apply, val_main_v7_apply, val_main_v5_apply, val_main_v4_apply,
    val_main_v6_apply, val_main_cst_0_apply, val_main_cst_apply]
  simp only [mask_apply, lidx_eq, ridx_eq, cidx_eq, Ideal.hostDivf_def, Ideal.addf_def, Ideal.ofBits_def,
    Ideal.ofBits_zero_f32, zero_add]
  rfl

end Cert.ReferenceIdeal.RefMean

end
-- ==== Proof.lean ====
/-
  The kernel computes, for a multi-hot integer array x [8192, 16384] and an embedding table emb [16384, 256], the mean
  embedding of each row:  out[r, e] = ( ∑ₖ ind(x[r, k]) · emb[k, e] ) / ( ( ∑ₖ ind(x[r, k]) ) + ε ),  where ind is 1 at a
  non-zero word and 0 at zero.  It walks a 16 × 8 grid of row tiles and vocabulary tiles, keeps the partial product and
  the partial row count of a row tile in two accumulators, and divides at the tile's last vocabulary tile.  The
  reference forms the same mask, multiplies it into the whole table, sums it along the rows, adds ε and divides.

  On extended reals both are the same function (MeanSpec.lean): the mask entries agree (a comparison converted to a
  float, by either route 0 or 1); the rounding of the mask to bfloat16 and back is the identity (the one entry of the
  idealization's ledger); the kernel's eight partial sums over blocks of 2048 positions add up to the reference's one
  sum over 16384 positions, by associativity and commutativity of addition alone (BlockSum.lean), so the finiteness
  of the table is never used.  RefIsMean.lean reads the reference's run as that function; CasePieces, TileArith,
  TileBlocks, Accumulators and KernelMean read the kernel's run as it.
-/
import proofs.«139883_j24008867184743_1_alg».proof.Defs
import proofs.«139883_j24008867184743_1_alg».proof.Proof.Gen.Kernel
import proofs.«139883_j24008867184743_1_alg».proof.Proof.Gen.Kernel.Skeleton
import proofs.«139883_j24008867184743_1_alg».proof.Proof.Gen.Kernel.Launch
import proofs.«139883_j24008867184743_1_alg».proof.Proof.Gen.Kernel.Points
import proofs.«139883_j24008867184743_1_alg».proof.Proof.Gen.Kernel.Frame
import proofs.«139883_j24008867184743_1_alg».proof.Proof.Gen.KernelIdeal
import proofs.«139883_j24008867184743_1_alg».proof.Proof.Gen.KernelIdeal.Skeleton
import proofs.«139883_j24008867184743_1_alg».proof.Proof.Gen.KernelIdeal.Launch
import proofs.«139883_j24008867184743_1_alg».proof.Proof.Gen.KernelIdeal.Points
import proofs.«139883_j24008867184743_1_alg».proof.Proof.Gen.KernelIdeal.Frame
import proofs.«139883_j24008867184743_1_alg».proof.Proof.Gen.ReferenceIdeal
import proofs.«139883_j24008867184743_1_alg».proof.Proof.Gen.Pre_finite_inputs
import proofs.«139883_j24008867184743_1_alg».proof.Proof.Gen.KernelIdeal.Value
import proofs.«139883_j24008867184743_1_alg».proof.Proof.Gen.ReferenceIdeal.Run
import proofs.«139883_j24008867184743_1_alg».proof.Proof.Gen.ReferenceIdeal.Read
import proofs.«139883_j24008867184743_1_alg».proof.Proof.KernelMean
import proofs.«139883_j24008867184743_1_alg».proof.Proof.RefIsMean
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask rounded to bfloat16 and widened back is the mask, on extended reals. -/
theorem preserves : Cert.preserves_Kernel_KernelIdeal :=
  IdealRules.truncf_extf.statement _ .f32 .bf16

/-- Both idealized programs end with the mean embedding of arguments that agree. -/
theorem algebraic : Cert.algebraic_KernelIdeal_ReferenceIdeal := by
  intro m ρ m' ρ' _ hagree
  refine ⟨fun c => MaskedMean.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KMean.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefMean.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
